-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1000000 32) (main_arg2 : FVec F S64x64 .f32) (main_arg3 : FVec F S64x64 .f32) (main_arg4 : FVec F S64x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S100000 : Shape := ⟨1, ![100000]⟩
abbrev S100000x1 : Shape := ⟨2, ![100000, 1]⟩
abbrev S1x64 : Shape := ⟨2, ![1, 64]⟩
abbrev S10000x64 : Shape := ⟨2, ![10000, 64]⟩

abbrev nBuf : Space → Nat
  | .hbm => 62
  | .vmem => 12
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S1x1000000, .i32⟩
  | .hbm, ⟨7, _⟩ => ⟨S1000000, .i32⟩
  | .hbm, ⟨8, _⟩ => ⟨S1x1000000, .i32⟩
  | .hbm, ⟨9, _⟩ => ⟨S1000000, .i32⟩
  | .hbm, ⟨10, _⟩ => ⟨S_, .i32⟩
  | .hbm, ⟨11, _⟩ => ⟨S1000000, .i32⟩
  | .hbm, ⟨12, _⟩ => ⟨S1000000, .i1⟩
  | .hbm, ⟨13, _⟩ => ⟨S_, .i32⟩
  | .hbm, ⟨14, _⟩ => ⟨S1000000, .i32⟩
  | .hbm, ⟨15, _⟩ => ⟨S1000000, .i32⟩
  | .hbm, ⟨16, _⟩ => ⟨S1000000, .i32⟩
  | .hbm, ⟨17, _⟩ => ⟨S1000000x1, .i32⟩
  | .hbm, ⟨18, _⟩ => ⟨S1000000x64, .f32⟩
  | .hbm, ⟨19, _⟩ => ⟨S_, .f32⟩
  | .hbm, ⟨20, _⟩ => ⟨S100000x64, .f32⟩
  | .hbm, ⟨21, _⟩ => ⟨S1000000x1, .i32⟩
  | .hbm, ⟨22, _⟩ => ⟨S100000x64, .f32⟩
  | .hbm, ⟨23, _⟩ => ⟨S_, .f32⟩
  | .hbm, ⟨24, _⟩ => ⟨S1000000, .f32⟩
  | .hbm, ⟨25, _⟩ => ⟨S_, .f32⟩
  | .hbm, ⟨26, _⟩ => ⟨S100000, .f32⟩
  | .hbm, ⟨27, _⟩ => ⟨S1000000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x64, .f32⟩
  | .hbm, ⟨34, _⟩ => ⟨S100000x64, .f32⟩
  | .hbm, ⟨35, _⟩ => ⟨S_, .i32⟩
  | .hbm, ⟨36, _⟩ => ⟨S1000000, .i32⟩
  | .hbm, ⟨37, _⟩ => ⟨S1000000, .i1⟩
  | .hbm, ⟨38, _⟩ => ⟨S_, .i32⟩
  | .hbm, ⟨39, _⟩ => ⟨S1000000, .i32⟩
  | .hbm, ⟨40, _⟩ => ⟨S1000000, .i32⟩
  | .hbm, ⟨41, _⟩ => ⟨S1000000, .i32⟩
  | .hbm, ⟨42, _⟩ => ⟨S1000000x1, .i32⟩
  | .hbm, ⟨43, _⟩ => ⟨S1000000x64, .f32⟩
  | .hbm, ⟨44, _⟩ => ⟨S_, .f32⟩
  | .hbm, ⟨45, _⟩ => ⟨S100000x64, .f32⟩
  | .hbm, ⟨46, _⟩ => ⟨S1000000x1, .i32⟩
  | .hbm, ⟨47, _⟩ => ⟨S100000x64, .f32⟩
  | .hbm, ⟨48, _⟩ => ⟨S_, .f32⟩
  | .hbm, ⟨49, _⟩ => ⟨S1000000, .f32⟩
  | .hbm, ⟨50, _⟩ => ⟨S_, .f32⟩
  | .hbm, ⟨51, _⟩ => ⟨S100000, .f32⟩
  | .hbm, ⟨52, _⟩ => ⟨S1000000x1, .i32⟩
  | .hbm, ⟨53, _⟩ => ⟨S100000, .f32⟩
  | .hbm, ⟨54, _⟩ => ⟨S_, .f32⟩
  | .hbm, ⟨55, _⟩ => ⟨S100000, .f32⟩
  | .hbm, ⟨56, _⟩ => ⟨S100000, .f32⟩
  | .hbm, ⟨57, _⟩ => ⟨S100000x1, .f32⟩
  | .hbm, ⟨58, _⟩ => ⟨S100000x64, .f32⟩
  | .hbm, ⟨59, _⟩ => ⟨S100000x64, .f32⟩
  | .hbm, ⟨60, _⟩ => ⟨S1x64, .f32⟩
  | .hbm, ⟨61, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S64x64, .f32⟩
  | .local _ .vmem, ⟨7, _⟩ => ⟨S64x64, .f32⟩
  | .local _ .vmem, ⟨8, _⟩ => ⟨S64x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x64.size a ≤ S100000x64.size a
  hwx0_7 : ∀ i : grid0.Coords, EltTy.bits .f32 = 32 ∨ (Rect.block (s := S100000x64) S10000x64.size (cc0_transform_7 i) (hinb0_7 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v41) S10000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v42) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v43) S10000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 74
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S1x1000000, .i32⟩
  | .hbm, ⟨7, _⟩ => ⟨S1000000, .i32⟩
  | .hbm, ⟨8, _⟩ => ⟨S1x1000000, .i32⟩
  | .hbm, ⟨9, _⟩ => ⟨S1000000, .i32⟩
  | .hbm, ⟨10, _⟩ => ⟨S_, .i32⟩
  | .hbm, ⟨11, _⟩ => ⟨S1000000, .i32⟩
  | .hbm, ⟨12, _⟩ => ⟨S1000000, .i1⟩
  | .hbm, ⟨13, _⟩ => ⟨S_, .i32⟩
  | .hbm, ⟨14, _⟩ => ⟨S1000000, .i32⟩
  | .hbm, ⟨15, _⟩ => ⟨S1000000, .i32⟩
  | .hbm, ⟨16, _⟩ => ⟨S1000000, .i32⟩
  | .hbm, ⟨17, _⟩ => ⟨S1000000x1, .i32⟩
  | .hbm, ⟨18, _⟩ => ⟨S1000000x64, .f32⟩
  | .hbm, ⟨19, _⟩ => ⟨S_, .f32⟩
  | .hbm, ⟨20, _⟩ => ⟨S100000x64, .f32⟩
  | .hbm, ⟨21, _⟩ => ⟨S1000000x1, .i32⟩
  | .hbm, ⟨22, _⟩ => ⟨S100000x64, .f32⟩
  | .hbm, ⟨23, _⟩ => ⟨S_, .f32⟩
  | .hbm, ⟨24, _⟩ => ⟨S1000000, .f32⟩
  | .hbm, ⟨25, _⟩ => ⟨S_, .f32⟩
  | .hbm, ⟨26, _⟩ => ⟨S100000, .f32⟩
  | .hbm, ⟨27, _⟩ => ⟨S1000000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x64, .f32⟩
  | .hbm, ⟨34, _⟩ => ⟨S100000x64, .f32⟩
  | .hbm, ⟨35, _⟩ => ⟨S_, .i32⟩
  | .hbm, ⟨36, _⟩ => ⟨S1000000, .i32⟩
  | .hbm, ⟨37, _⟩ => ⟨S1000000, .i1⟩
  | .hbm, ⟨38, _⟩ => ⟨S_, .i32⟩
  | .hbm, ⟨39, _⟩ => ⟨S1000000, .i32⟩
  | .hbm, ⟨40, _⟩ => ⟨S1000000, .i32⟩
  | .hbm, ⟨41, _⟩ => ⟨S1000000, .i32⟩
  | .hbm, ⟨42, _⟩ => ⟨S1000000x1, .i32⟩
  | .hbm, ⟨43, _⟩ => ⟨S1000000x64, .f32⟩
  | .hbm, ⟨44, _⟩ => ⟨S_, .f32⟩
  | .hbm, ⟨45, _⟩ => ⟨S100000x64, .f32⟩
  | .hbm, ⟨46, _⟩ => ⟨S1000000x1, .i32⟩
  | .hbm, ⟨47, _⟩ => ⟨S100000x64, .f32⟩
  | .hbm, ⟨48, _⟩ => ⟨S_, .f32⟩
  | .hbm, ⟨49, _⟩ => ⟨S1000000, .f32⟩
  | .hbm, ⟨50, _⟩ => ⟨S_, .f32⟩
  | .hbm, ⟨51, _⟩ => ⟨S100000, .f32⟩
  | .hbm, ⟨52, _⟩ => ⟨S1000000x1, .i32⟩
  | .hbm, ⟨53, _⟩ => ⟨S100000, .f32⟩
  | .hbm, ⟨54, _⟩ => ⟨S_, .f32⟩
  | .hbm, ⟨55, _⟩ => ⟨S100000, .f32⟩
  | .hbm, ⟨56, _⟩ => ⟨S100000, .f32⟩
  | .hbm, ⟨57, _⟩ => ⟨S100000x1, .f32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | .hbm, ⟨64, _⟩ => ⟨S100000x64, .f32⟩
  | .hbm, ⟨65, _⟩ => ⟨S_, .f32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S_, .f32⟩
  | .hbm, ⟨71, _⟩ => ⟨S100000x64, .f32⟩
  | .hbm, ⟨72, _⟩ => ⟨S100000x64, .f32⟩
  | .hbm, ⟨73, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_11 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S100000x64_S64x64_S100000x64_1_0_0_1_n_n_wf : DotDims.WF S100000x64 S64x64 S100000x64 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Spec.lean ====
/-
  The function both programs compute, stated once over whole arrays and over the extended reals.

  Write x for the node features ([100000, 64]), a_in and a_out for the two mean-aggregated neighbour
  features (same shape), W_self, W_in, W_out for the three 64 x 64 weight matrices and b for the bias.
  Entry (r, q) of the result is

      ((x W_self)(r, q) + b(q)) + 1/2 (a_in W_in)(r, q)) + 1/2 (a_out W_out)(r, q),

  each matrix product the plain sum over the 64 contracted positions, the additions grouped exactly
  as written (on the extended reals addition is not cancellative at the infinities, so the grouping
  is part of the statement; both programs use this one).  The factor 1/2 is kept as the float literal
  both programs print, never evaluated.

  A row of a product depends on that row of the left factor only, which is why a kernel may compute
  the result block of rows by block of rows: `rowDot` is generic in the number of rows.
-/
import Idealize.ShloMosaic.PureOps.Ideal
import Idealize.ShloMosaic.Lib.ValueIdx

noncomputable section

namespace Cert.Combine

open Idealize.ShloMosaic Idealize.ShloMosaic.ValueIdx

/-- The weight of each neighbour term: the literal one half, as both programs spell it. -/
def half : EReal := Ideal.ofBits .f32 0x3F000000#32

/-- Entry (r, q) of the matrix product `a · w` for `a` of `n` rows and 64 columns, `w` 64 x 64. -/
def rowDot {n : Nat} (a : (⟨2, ![n, 64]⟩ : Shape).Idx → EReal) (w : (⟨2, ![64, 64]⟩ : Shape).Idx → EReal)
    (r : Fin n) (q : Fin 64) : EReal :=
  ∑ k : Fin 64, a (ix2 r k) * w (ix2 k q)

/-- One entry of the result from the row of each left factor, the column of each weight, and the bias entry. -/
def entry {n : Nat} (x ai ao : (⟨2, ![n, 64]⟩ : Shape).Idx → EReal)
    (wSelf wIn wOut : (⟨2, ![64, 64]⟩ : Shape).Idx → EReal) (bq : EReal) (r : Fin n) (q : Fin 64) : EReal :=
  ((rowDot x wSelf r q + bq) + half * rowDot ai wIn r q) + half * rowDot ao wOut r q

/-- The whole result array. -/
def combine (x ai ao : (⟨2, ![100000, 64]⟩ : Shape).Idx → EReal)
    (wSelf wIn wOut : (⟨2, ![64, 64]⟩ : Shape).Idx → EReal) (b : (⟨1, ![64]⟩ : Shape).Idx → EReal) :
    (⟨2, ![100000, 64]⟩ : Shape).Idx → EReal :=
  fun i => entry x ai ao wSelf wIn wOut (b (ix1 (i 1))) (i 0) (i 1)

/-- An entry of the result reads only row `r` of the three left factors, column `q` of the three weights and one bias
    entry: two sets of operands that agree there (possibly at different positions `r'`, `q'` of arrays with a
    different number of rows) give the same entry. -/
theorem entry_congr {n n' : Nat} (x ai ao : (⟨2, ![n, 64]⟩ : Shape).Idx → EReal)
    (x' ai' ao' : (⟨2, ![n', 64]⟩ : Shape).Idx → EReal)
    (ws wi wo ws' wi' wo' : (⟨2, ![64, 64]⟩ : Shape).Idx → EReal) (bq bq' : EReal)
    (r : Fin n) (r' : Fin n') (q q' : Fin 64)
    (hx : ∀ k : Fin 64, x (ix2 r k) = x' (ix2 r' k)) (hi : ∀ k : Fin 64, ai (ix2 r k) = ai' (ix2 r' k))
    (ho : ∀ k : Fin 64, ao (ix2 r k) = ao' (ix2 r' k))
    (hws : ∀ k : Fin 64, ws (ix2 k q) = ws' (ix2 k q')) (hwi : ∀ k : Fin 64, wi (ix2 k q) = wi' (ix2 k q'))
    (hwo : ∀ k : Fin 64, wo (ix2 k q) = wo' (ix2 k q')) (hb : bq = bq') :
    entry x ai ao ws wi wo bq r q = entry x' ai' ao' ws' wi' wo' bq' r' q' := by
  unfold entry rowDot
  simp only [hx, hi, ho, hws, hwi, hwo, hb]

end Cert.Combine

end
-- ==== Proof.Payload.lean ====
/-
  What the kernel body stores, read at one entry of its block.

  The body loads a block of 10000 rows of each of x, a_in, a_out, the three weight matrices whole and the bias
  as a 1 x 64 row, and stores one value.  Read at row `p` and column `q` of the block, that value is the
  specification's `entry` of the three row blocks: each `tpu.matmul` into a zero accumulator is the plain sum
  over the contracted axis (the narrowing of the operands to bf16 is the identity on extended reals), the bias row
  broadcast along the rows is `b(q)`, and the two scalar factors are the literal one half.
-/
import proofs.«169316_j36567351558755_1_alg».proof.Proof.Gen.KernelIdeal.Skeleton
import proofs.«169316_j36567351558755_1_alg».proof.Proof.Spec
import Idealize.ShloMosaic.PureOps.Ideal.Laws
import Idealize.ShloMosaic.Lib.Pipeline.Value
import Idealize.ShloMosaic.Lib.ValueIdx

noncomputable section

namespace Cert.KernelIdeal.Payload

open Cert.KernelIdeal Cert.KernelIdeal.Gen Idealize.ShloMosaic Idealize.ShloMosaic.ValueIdx Cert.Combine

/-! ## The operand indices of the body's matrix product -/

theorem lhs_axis0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl
theorem lhs_axis1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_axis0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_axis1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- A block of rows times a weight matrix, accumulated from zero, read at (p, q): row `p` of the block against
    column `q` of the weights. -/
theorem matmul_zero_apply (a : S10000x64.Idx → EReal) (w : S64x64.Idx → EReal) (p : Fin 10000) (q : Fin 64) :
    FloatOps.matmul (F := Ideal) (φ₁ := .bf16) (φ₂ := .bf16) dot_S10000x64_S64x64_S10000x64_1_0_0_1_n_n none a w
        (constant S10000x64 .f32 0x00000000#32) (ix2 p q)
      = rowDot a w p q := by
  rw [Ideal.matmul_constant_zero_apply,
    ← Equiv.sum_comp (ValueIdx.contrEquiv1 dot_S10000x64_S64x64_S10000x64_1_0_0_1_n_n 64 rfl rfl).symm]
  unfold rowDot
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q)
      ((ValueIdx.contrEquiv1 dot_S10000x64_S64x64_S10000x64_1_0_0_1_n_n 64 rfl rfl).symm k) = ix2 p k :=
    funext fun ax => Fin.ext (by
      match ax with
      | ⟨0, _⟩ => exact lhs_axis0 _ _
      | ⟨1, _⟩ => exact (lhs_axis1 _ _).trans hk)
  have er : dot_S10000x64_S64x64_S10000x64_1_0_0_1_n_n.rhsIdx (ix2 p q)
      ((ValueIdx.contrEquiv1 dot_S10000x64_S64x64_S10000x64_1_0_0_1_n_n 64 rfl rfl).symm k) = ix2 k q :=
    funext fun ax => Fin.ext (by
      match ax with
      | ⟨0, _⟩ => exact (rhs_axis0 _ _).trans hk
      | ⟨1, _⟩ => exact rhs_axis1 _ _)
  rw [el, er]

/-- The bias row broadcast along the 10000 rows, read at (p, q), is its entry `q`. -/
theorem bias_apply (v : S1x64.Idx → EReal) (p : Fin 10000) (q : Fin 64) :
    broadcastTo S10000x64 v broadcasts_S1x64_S10000x64 (ix2 p q) = v (ix2 (0 : Fin 1) q) := by
  exact broadcastTo_apply v broadcasts_S1x64_S10000x64 (ix2 p q) (ix2 (0 : Fin 1) q) (fun ax => by
    match ax with
    | ⟨0, _⟩ => show (0 : Nat) = if (1 : Nat) = 1 then 0 else _; rw [if_pos rfl]
    | ⟨1, _⟩ => show q.val = if (64 : Nat) = 1 then 0 else q.val; rw [if_neg (by decide)])

/-- THE PAYLOAD AT AN ENTRY: the specification's `entry` of the loaded blocks. -/
theorem pay_apply (v0 v2 v5 : Vec Ideal S10000x64 .f32) (v8 v10 v12 : Vec Ideal S64x64 .f32) (v17 : Vec Ideal S1x64 .f32)
    (p : Fin 10000) (q : Fin 64) :
    k0_pay1 (F := Ideal) v0 v2 v5 v8 v10 v12 v17 (ix2 p q)
      = entry v0 v2 v5 v8 v10 v12 (v17 (ix2 (0 : Fin 1) q)) p q := by
  unfold k0_pay1 entry
  simp only [shapeCast_self]
  show ((FloatOps.matmul (F := Ideal) (φ₁ := .bf16) (φ₂ := .bf16) dot_S10000x64_S64x64_S10000x64_1_0_0_1_n_n none v0 v8
            (constant S10000x64 .f32 0x00000000#32) (ix2 p q)
          + broadcastTo S10000x64 v17 broadcasts_S1x64_S10000x64 (ix2 p q))
        + Ideal.ofBits .f32 0x3F000000#32
          * FloatOps.matmul (F := Ideal) (φ₁ := .bf16) (φ₂ := .bf16) dot_S10000x64_S64x64_S10000x64_1_0_0_1_n_n none v2 v10
              (constant S10000x64 .f32 0x00000000#32) (ix2 p q))
      + Ideal.ofBits .f32 0x3F000000#32
        * FloatOps.matmul (F := Ideal) (φ₁ := .bf16) (φ₂ := .bf16) dot_S10000x64_S64x64_S10000x64_1_0_0_1_n_n none v5 v12
            (constant S10000x64 .f32 0x00000000#32) (ix2 p q) = _
  rw [matmul_zero_apply, matmul_zero_apply, matmul_zero_apply, bias_apply]
  rfl

/-- The same at an index of the block given whole. -/
theorem pay_apply_idx (v0 v2 v5 : Vec Ideal S10000x64 .f32) (v8 v10 v12 : Vec Ideal S64x64 .f32) (v17 : Vec Ideal S1x64 .f32)
    (j : S10000x64.Idx) :
    k0_pay1 (F := Ideal) v0 v2 v5 v8 v10 v12 v17 j
      = entry v0 v2 v5 v8 v10 v12 (v17 (ix2 (0 : Fin 1) (j 1))) (j 0) (j 1) :=
  (congrArg (k0_pay1 (F := Ideal) v0 v2 v5 v8 v10 v12 v17) (eq_ix2 j)).trans (pay_apply v0 v2 v5 v8 v10 v12 v17 (j 0) (j 1))

end Cert.KernelIdeal.Payload

end
-- ==== Proof.KernelValue.lean ====
/-
  The kernel's result array is `combine` of the arrays the region finds.

  The grid has ten points; point `t` stages rows 10000 t … 10000 t + 9999 of x, a_in and a_out (block index (t, 0)),
  the three weight matrices and the bias row whole (block index (0, 0) at every point), and writes back rows
  10000 t … 10000 t + 9999 of the result.  An entry of `combine` reads one row of each left factor, so what point `t`
  writes back is block `t` of `combine` of the whole arrays; the ten blocks tile the 100000 rows (row `r` lies in
  block `r / 10000`), so the array ends at `combine` everywhere.
-/
import proofs.«169316_j36567351558755_1_alg».proof.Proof.Gen.KernelIdeal.Value
import proofs.«169316_j36567351558755_1_alg».proof.Proof.Payload
import proofs.«169316_j36567351558755_1_alg».proof.Proof.Spec

noncomputable section

namespace Cert.KernelIdeal.KernelValue

open Cert.KernelIdeal Cert.KernelIdeal.Gen Cert.KernelIdeal.Value Idealize.ShloMosaic Idealize.ShloMosaic.TcCoe Idealize.SL.Sem
open Idealize.ShloMosaic.ValueIdx Cert.Combine
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The arrays the region finds, and the blocks a point stages, at their literal types -/

abbrev xArr (c : Dev nD) : S100000x64.Idx → EReal := V m c main_arg0
abbrev inArr (c : Dev nD) : S100000x64.Idx → EReal := V m c main_v22
abbrev outArr (c : Dev nD) : S100000x64.Idx → EReal := V m c main_v41
abbrev wSelfArr (c : Dev nD) : S64x64.Idx → EReal := V m c main_arg4
abbrev wInArr (c : Dev nD) : S64x64.Idx → EReal := V m c main_arg2
abbrev wOutArr (c : Dev nD) : S64x64.Idx → EReal := V m c main_arg3
abbrev biasArr (c : Dev nD) : S1x64.Idx → EReal := V m c main_v42

abbrev xBlk (c : Dev nD) (t : Fin cfg0.N) : Vec Ideal S10000x64 .f32 := iblk m c 0 t
abbrev inBlk (c : Dev nD) (t : Fin cfg0.N) : Vec Ideal S10000x64 .f32 := iblk m c 1 t
abbrev outBlk (c : Dev nD) (t : Fin cfg0.N) : Vec Ideal S10000x64 .f32 := iblk m c 2 t
abbrev wSelfBlk (c : Dev nD) (t : Fin cfg0.N) : Vec Ideal S64x64 .f32 := iblk m c 3 t
abbrev wInBlk (c : Dev nD) (t : Fin cfg0.N) : Vec Ideal S64x64 .f32 := iblk m c 4 t
abbrev wOutBlk (c : Dev nD) (t : Fin cfg0.N) : Vec Ideal S64x64 .f32 := iblk m c 5 t
abbrev biasBlk (c : Dev nD) (t : Fin cfg0.N) : Vec Ideal S1x64 .f32 := iblk m c 6 t

/-- The bias row the region finds, read as a vector of 64. -/
def biasVec (c : Dev nD) : (⟨1, ![64]⟩ : Shape).Idx → EReal := fun j => biasArr m c (ix2 (0 : Fin 1) (j 0))

/-- The function the result array ends holding, of the arrays as the region finds them. -/
def G (c : Dev nD) : S100000x64.Idx → EReal :=
  combine (xArr m c) (inArr m c) (outArr m c) (wSelfArr m c) (wInArr m c) (wOutArr m c) (biasVec m c)

/-! ## The index maps, decided over the ten points -/

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## A point's blocks, read where the output block's rows and columns say

  Each read is stated for an ARBITRARY array `A` of the window's shape: it is a fact about the window's index map and
  block size, not about what the array holds. -/

/-- Row `p` of point `t`'s output block is row `10000 t + p` of the array; its columns are the array's. -/
theorem out_row (t : Fin cfg0.N) (j : S10000x64.Idx) :
    ((((cfg0.win 7).blk t).view.emb j) 0).val = t.val * 10000 + (j 0).val := by
  obtain ⟨-, -, -, -, -, -, -, -, -, -, -, -, -, -, e70, -⟩ := idx_facts t
  show win0_7.index t (0 : Fin 2) * 10000 + 1 * (j 0).val = _
  omega
theorem out_col (t : Fin cfg0.N) (j : S10000x64.Idx) :
    ((((cfg0.win 7).blk t).view.emb j) 1).val = (j 1).val := by
  obtain ⟨-, -, -, -, -, -, -, -, -, -, -, -, -, -, -, e71⟩ := idx_facts t
  show win0_7.index t (1 : Fin 2) * 64 + 1 * (j 1).val = _
  omega

/-- Windows 0, 1, 2 (the three left factors): row `p` of the block at point `t` is row `10000 t + p` of the array. -/
theorem rows0 (A : S100000x64.Idx → EReal) (t : Fin cfg0.N) (p : Fin 10000) (k : Fin 64) (r : Fin 100000)
    (hr : r.val = t.val * 10000 + p.val) : ((cfg0.win 0).blk t).view.read (Elt Ideal) A (ix2 p k) = A (ix2 r k) := by
  obtain ⟨e00, e01, -⟩ := idx_facts t
  show A (((cfg0.win 0).blk t).view.emb (ix2 p k)) = A (ix2 r k)
  refine congrArg A (funext fun a => Fin.ext ?_)
  match a with
  | ⟨0, _⟩ => show win0_0.index t (0 : Fin 2) * 10000 + 1 * p.val = r.val; omega
  | ⟨1, _⟩ => show win0_0.index t (1 : Fin 2) * 64 + 1 * k.val = k.val; omega
theorem rows1 (A : S100000x64.Idx → EReal) (t : Fin cfg0.N) (p : Fin 10000) (k : Fin 64) (r : Fin 100000)
    (hr : r.val = t.val * 10000 + p.val) : ((cfg0.win 1).blk t).view.read (Elt Ideal) A (ix2 p k) = A (ix2 r k) := by
  obtain ⟨-, -, e10, e11, -⟩ := idx_facts t
  show A (((cfg0.win 1).blk t).view.emb (ix2 p k)) = A (ix2 r k)
  refine congrArg A (funext fun a => Fin.ext ?_)
  match a with
  | ⟨0, _⟩ => show win0_1.index t (0 : Fin 2) * 10000 + 1 * p.val = r.val; omega
  | ⟨1, _⟩ => show win0_1.index t (1 : Fin 2) * 64 + 1 * k.val = k.val; omega
theorem rows2 (A : S100000x64.Idx → EReal) (t : Fin cfg0.N) (p : Fin 10000) (k : Fin 64) (r : Fin 100000)
    (hr : r.val = t.val * 10000 + p.val) : ((cfg0.win 2).blk t).view.read (Elt Ideal) A (ix2 p k) = A (ix2 r k) := by
  obtain ⟨-, -, -, -, e20, e21, -⟩ := idx_facts t
  show A (((cfg0.win 2).blk t).view.emb (ix2 p k)) = A (ix2 r k)
  refine congrArg A (funext fun a => Fin.ext ?_)
  match a with
  | ⟨0, _⟩ => show win0_2.index t (0 : Fin 2) * 10000 + 1 * p.val = r.val; omega
  | ⟨1, _⟩ => show win0_2.index t (1 : Fin 2) * 64 + 1 * k.val = k.val; omega

/-- Windows 3, 4, 5 (the weights) are staged whole at every point. -/
theorem whole3 (A : S64x64.Idx → EReal) (t : Fin cfg0.N) (k q q' : Fin 64) (hq : q'.val = q.val) :
    ((cfg0.win 3).blk t).view.read (Elt Ideal) A (ix2 k q) = A (ix2 k q') := by
  obtain ⟨-, -, -, -, -, -, e30, e31, -⟩ := idx_facts t
  show A (((cfg0.win 3).blk t).view.emb (ix2 k q)) = A (ix2 k q')
  refine congrArg A (funext fun a => Fin.ext ?_)
  match a with
  | ⟨0, _⟩ => show win0_3.index t (0 : Fin 2) * 64 + 1 * k.val = k.val; omega
  | ⟨1, _⟩ => show win0_3.index t (1 : Fin 2) * 64 + 1 * q.val = q'.val; omega
theorem whole4 (A : S64x64.Idx → EReal) (t : Fin cfg0.N) (k q q' : Fin 64) (hq : q'.val = q.val) :
    ((cfg0.win 4).blk t).view.read (Elt Ideal) A (ix2 k q) = A (ix2 k q') := by
  obtain ⟨-, -, -, -, -, -, -, -, e40, e41, -⟩ := idx_facts t
  show A (((cfg0.win 4).blk t).view.emb (ix2 k q)) = A (ix2 k q')
  refine congrArg A (funext fun a => Fin.ext ?_)
  match a with
  | ⟨0, _⟩ => show win0_4.index t (0 : Fin 2) * 64 + 1 * k.val = k.val; omega
  | ⟨1, _⟩ => show win0_4.index t (1 : Fin 2) * 64 + 1 * q.val = q'.val; omega
theorem whole5 (A : S64x64.Idx → EReal) (t : Fin cfg0.N) (k q q' : Fin 64) (hq : q'.val = q.val) :
    ((cfg0.win 5).blk t).view.read (Elt Ideal) A (ix2 k q) = A (ix2 k q') := by
  obtain ⟨-, -, -, -, -, -, -, -, -, -, e50, e51, -⟩ := idx_facts t
  show A (((cfg0.win 5).blk t).view.emb (ix2 k q)) = A (ix2 k q')
  refine congrArg A (funext fun a => Fin.ext ?_)
  match a with
  | ⟨0, _⟩ => show win0_5.index t (0 : Fin 2) * 64 + 1 * k.val = k.val; omega
  | ⟨1, _⟩ => show win0_5.index t (1 : Fin 2) * 64 + 1 * q.val = q'.val; omega

/-- So is window 6, the bias row. -/
theorem whole6 (A : S1x64.Idx → EReal) (t : Fin cfg0.N) (q q' : Fin 64) (hq : q'.val = q.val) :
    ((cfg0.win 6).blk t).view.read (Elt Ideal) A (ix2 (0 : Fin 1) q) = A (ix2 (0 : Fin 1) q') := by
  obtain ⟨-, -, -, -, -, -, -, -, -, -, -, -, e60, e61, -⟩ := idx_facts t
  show A (((cfg0.win 6).blk t).view.emb (ix2 (0 : Fin 1) q)) = A (ix2 (0 : Fin 1) q')
  refine congrArg A (funext fun a => Fin.ext ?_)
  match a with
  | ⟨0, _⟩ => show win0_6.index t (0 : Fin 2) * 1 + 1 * 0 = 0; omega
  | ⟨1, _⟩ => show win0_6.index t (1 : Fin 2) * 64 + 1 * q.val = q'.val; omega

/-! The same reads, of the arrays the region finds: a staged block is its array read through the window. -/

theorem x_read (c : Dev nD) (t : Fin cfg0.N) (p : Fin 10000) (k : Fin 64) (r : Fin 100000)
    (hr : r.val = t.val * 10000 + p.val) : xBlk m c t (ix2 p k) = xArr m c (ix2 r k) := by
  show iblk m c 0 t (ix2 p k) = _
  unfold iblk
  exact rows0 (V m c (Pipeline.arrRef spec0 0)) t p k r hr
theorem in_read (c : Dev nD) (t : Fin cfg0.N) (p : Fin 10000) (k : Fin 64) (r : Fin 100000)
    (hr : r.val = t.val * 10000 + p.val) : inBlk m c t (ix2 p k) = inArr m c (ix2 r k) := by
  show iblk m c 1 t (ix2 p k) = _
  unfold iblk
  exact rows1 (V m c (Pipeline.arrRef spec0 1)) t p k r hr
theorem out_read (c : Dev nD) (t : Fin cfg0.N) (p : Fin 10000) (k : Fin 64) (r : Fin 100000)
    (hr : r.val = t.val * 10000 + p.val) : outBlk m c t (ix2 p k) = outArr m c (ix2 r k) := by
  show iblk m c 2 t (ix2 p k) = _
  unfold iblk
  exact rows2 (V m c (Pipeline.arrRef spec0 2)) t p k r hr
theorem wSelf_read (c : Dev nD) (t : Fin cfg0.N) (k q q' : Fin 64) (hq : q'.val = q.val) :
    wSelfBlk m c t (ix2 k q) = wSelfArr m c (ix2 k q') := by
  show iblk m c 3 t (ix2 k q) = _
  unfold iblk
  exact whole3 (V m c (Pipeline.arrRef spec0 3)) t k q q' hq
theorem wIn_read (c : Dev nD) (t : Fin cfg0.N) (k q q' : Fin 64) (hq : q'.val = q.val) :
    wInBlk m c t (ix2 k q) = wInArr m c (ix2 k q') := by
  show iblk m c 4 t (ix2 k q) = _
  unfold iblk
  exact whole4 (V m c (Pipeline.arrRef spec0 4)) t k q q' hq
theorem wOut_read (c : Dev nD) (t : Fin cfg0.N) (k q q' : Fin 64) (hq : q'.val = q.val) :
    wOutBlk m c t (ix2 k q) = wOutArr m c (ix2 k q') := by
  show iblk m c 5 t (ix2 k q) = _
  unfold iblk
  exact whole5 (V m c (Pipeline.arrRef spec0 5)) t k q q' hq
theorem bias_read (c : Dev nD) (t : Fin cfg0.N) (q q' : Fin 64) (hq : q'.val = q.val) :
    biasBlk m c t (ix2 (0 : Fin 1) q) = biasArr m c (ix2 (0 : Fin 1) q') := by
  show iblk m c 6 t (ix2 (0 : Fin 1) q) = _
  unfold iblk
  exact whole6 (V m c (Pipeline.arrRef spec0 6)) t q q' hq

/-! ## What a point writes back -/

/-- WHAT POINT `t` WRITES BACK is block `t` of `G`: the stored value at an entry of the block is the specification's entry
    of the point's blocks, and each block read is the array read at the row and column the output block's entry sits at. -/
theorem flushed_eq (c : Dev nD) (t : Fin cfg0.N) :
    (dats m 0 c).flushed 7 t = ((cfg0.win 7).blk t).view.read (Elt Ideal) (G m c) := by
  rw [flushed7]
  unfold out0_7
  rw [View.canon_unit_zero hz]
  simp only [View.ld_unit_zero (S := S10000x64) hz, View.ld_unit_zero (S := S64x64) hz, View.ld_unit_zero (S := S1x64) hz]
  funext j
  show k0_pay1 (F := Ideal) (xBlk m c t) (inBlk m c t) (outBlk m c t) (wSelfBlk m c t) (wInBlk m c t) (wOutBlk m c t) (biasBlk m c t) j
      = G m c (((cfg0.win 7).blk t).view.emb j)
  refine (Payload.pay_apply_idx (xBlk m c t) (inBlk m c t) (outBlk m c t) (wSelfBlk m c t) (wInBlk m c t) (wOutBlk m c t) (biasBlk m c t) j).trans ?_
  unfold G combine
  have h0 := out_row t j
  have h1 := out_col t j
  refine entry_congr (xBlk m c t) (inBlk m c t) (outBlk m c t) (xArr m c) (inArr m c) (outArr m c)
    (wSelfBlk m c t) (wInBlk m c t) (wOutBlk m c t) (wSelfArr m c) (wInArr m c) (wOutArr m c) _ _
    (j 0) ((((cfg0.win 7).blk t).view.emb j) 0) (j 1) ((((cfg0.win 7).blk t).view.emb j) 1) ?_ ?_ ?_ ?_ ?_ ?_ ?_
  · exact fun k => x_read m c t (j 0) k _ h0
  · exact fun k => in_read m c t (j 0) k _ h0
  · exact fun k => out_read m c t (j 0) k _ h0
  · exact fun k => wSelf_read m c t k (j 1) _ h1
  · exact fun k => wIn_read m c t k (j 1) _ h1
  · exact fun k => wOut_read m c t k (j 1) _ h1
  · exact bias_read m c t (j 1) _ h1

/-! ## The blocks tile the array -/

/-- An index of the array is in point `t`'s block iff each coordinate is in the block's range on its axis. -/
theorem mem_blk (t : Fin cfg0.N) (i : S100000x64.Idx) :
    i ∈ ((cfg0.win 7).blk t).view.set ↔ ∀ a : Fin 2, win0_7.index t a * S10000x64.size a ≤ (i a).val
      ∧ (i a).val < win0_7.index t a * S10000x64.size a + S10000x64.size a := by
  show i ∈ ((View.whole main_v43).slice (win0_7.rect t)).set ↔ _
  rw [View.set_slice_whole, Rect.mem_set_unit]
  exact Iff.rfl

/-- Row `r` of the result lies in the block of point `r / 10000`. -/
theorem cover (i : S100000x64.Idx) :
    ∃ t : Fin cfg0.N, (cfg0.win 7).flush t = true ∧ i ∈ ((cfg0.win 7).blk t).view.set := by
  have hi0 : (i 0).val < 100000 := (i 0).isLt
  have hi1 : (i 1).val < 64 := (i 1).isLt
  have ht : (i 0).val / 10000 < cfg0.N := by show (i 0).val / 10000 < 10; omega
  refine ⟨⟨(i 0).val / 10000, ht⟩, flush0_7 _, ?_⟩
  rw [mem_blk]
  obtain ⟨-, -, -, -, -, -, -, -, -, -, -, -, -, -, e70, e71⟩ := idx_facts ⟨(i 0).val / 10000, ht⟩
  intro a
  match a with
  | ⟨0, _⟩ =>
    show win0_7.index ⟨(i 0).val / 10000, ht⟩ (0 : Fin 2) * 10000 ≤ (i 0).val
      ∧ (i 0).val < win0_7.index ⟨(i 0).val / 10000, ht⟩ (0 : Fin 2) * 10000 + 10000
    rw [e70]; show (i 0).val / 10000 * 10000 ≤ (i 0).val ∧ (i 0).val < (i 0).val / 10000 * 10000 + 10000; omega
  | ⟨1, _⟩ =>
    show win0_7.index ⟨(i 0).val / 10000, ht⟩ (1 : Fin 2) * 64 ≤ (i 1).val
      ∧ (i 1).val < win0_7.index ⟨(i 0).val / 10000, ht⟩ (1 : Fin 2) * 64 + 64
    rw [e71]; omega

/-! ## The array after the run -/

theorem final (c : Dev nD) : (dats m 0 c).arrAt 7 cfg0.N = G m c :=
  (dats m 0 c).arrAt_eq_of_cover 7 (G m c) (fun t _ => flushed_eq m c t) cover

end Cert.KernelIdeal.KernelValue

end
-- ==== Proof.HostPrefix.lean ====
/-
  The arrays the kernel's region finds are the reference's stages.

  Before its one region the kernel's program runs, on the host, the very operations the reference begins with: split the
  edge list into its two rows, wrap negative node numbers, gather the source rows of x, scatter-add them and a count of
  ones by destination, divide by the count clamped below by one — once for each direction.  So the second and third
  operand of the region (the two mean aggregates) are, as functions of x and the edge list, the reference's stages %22
  and %41, operation for operation; and the seventh operand is the bias laid out as one row.
-/
import proofs.«169316_j36567351558755_1_alg».proof.Proof.Gen.KernelIdeal.Frame
import proofs.«169316_j36567351558755_1_alg».proof.Proof.Gen.ReferenceIdeal.Read
import Idealize.ShloMosaic.Lib.StableHlo.Run
import Idealize.ShloMosaic.Lib.Pipeline.Value
import Idealize.ShloMosaic.Lib.ValueIdx

noncomputable section

namespace Cert.KernelIdeal.HostPrefix

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

set_option maxRecDepth 8192 in
set_option maxHeartbeats 4000000 in
/-- The aggregate over incoming edges, as the region finds it, is the reference's stage %22 of x and the edge list. -/
theorem aggIn_eq (c : Dev nD) :
    (V m c main_v22 : S100000x64.Idx → EReal)
      = Cert.ReferenceIdeal.Read.val_main_v22 (F := Ideal) (m ((c : Thread nD τ).loc main_arg0)) (m ((c : Thread nD τ).loc main_arg1)) := by
  dsimp only [V, hostOps0]
  after_results_simp
  rfl

set_option maxRecDepth 8192 in
set_option maxHeartbeats 4000000 in
/-- The aggregate over outgoing edges, as the region finds it, is the reference's stage %41. -/
theorem aggOut_eq (c : Dev nD) :
    (V m c main_v41 : S100000x64.Idx → EReal)
      = Cert.ReferenceIdeal.Read.val_main_v41 (F := Ideal) (m ((c : Thread nD τ).loc main_arg0)) (m ((c : Thread nD τ).loc main_arg1)) := by
  dsimp only [V, hostOps0]
  after_results_simp
  rfl

set_option maxRecDepth 8192 in
set_option maxHeartbeats 4000000 in
/-- The bias as the region finds it: the 64 entries laid out as one row. -/
theorem biasRow_eq (c : Dev nD) :
    (V m c main_v42 : S1x64.Idx → EReal) = shapeCast S1x64 (m ((c : Thread nD τ).loc main_arg5)) shapeCasts_S64_S1x64 := by
  dsimp only [V, hostOps0]
  after_results_simp
  rfl

/-- Entry `q` of that row is entry `q` of the bias. -/
theorem biasRow_apply (c : Dev nD) (q : Fin 64) :
    (V m c main_v42 : S1x64.Idx → EReal) (ix2 (0 : Fin 1) q) = m ((c : Thread nD τ).loc main_arg5) (ix1 q) := by
  rw [biasRow_eq]
  exact shapeCast_apply (s := S64) (t := S1x64) _ shapeCasts_S64_S1x64 (ix2 (0 : Fin 1) q) (ix1 q) (by
    rw [Shape.rowMajor_val_one, Shape.rowMajor_val_two]
    show q.val = 0 * 64 + q.val
    omega)

end Cert.KernelIdeal.HostPrefix

end
-- ==== Proof.Bridge.lean ====
/-
  The kernel's result as a function of the ARGUMENTS.

  `KernelValue.G` is `combine` of the arrays the region finds.  Of those, the features and the three weight matrices
  are arguments no host operation writes; the two aggregates are the reference's stages %22 and %41 of the features and
  the edge list; the bias row read as a vector is the bias.  So the kernel's result is `combine` of the features, those
  two stages, the weights and the bias — the form the reference's result has too.
-/
import proofs.«169316_j36567351558755_1_alg».proof.Proof.KernelValue
import proofs.«169316_j36567351558755_1_alg».proof.Proof.HostPrefix

noncomputable section

namespace Cert.KernelIdeal.Bridge

open Cert.KernelIdeal Cert.KernelIdeal.Gen Idealize.ShloMosaic Idealize.ShloMosaic.TcCoe Idealize.SL.Sem
open Idealize.ShloMosaic.ValueIdx Cert.Combine Cert.KernelIdeal.KernelValue Cert.KernelIdeal.HostPrefix

variable (m : (ℓ : Loc nD τ sig) → Buf (Elt Ideal) ℓ)

/-- The bias row the region finds, read as a vector, is the bias argument. -/
theorem biasVec_eq (c : Dev nD) :
    biasVec m c = (m ((c : Thread nD τ).loc main_arg5) : (⟨1, ![64]⟩ : Shape).Idx → EReal) := by
  funext j
  unfold biasVec
  refine (biasRow_apply m c (j 0)).trans ?_
  exact congrArg (m ((c : Thread nD τ).loc main_arg5)) (eq_ix1 j).symm

/-- THE KERNEL'S RESULT OF THE ARGUMENTS. -/
theorem G_eq (c : Dev nD) :
    G m c = combine (m ((c : Thread nD τ).loc main_arg0))
      (Cert.ReferenceIdeal.Read.val_main_v22 (F := Ideal) (m ((c : Thread nD τ).loc main_arg0)) (m ((c : Thread nD τ).loc main_arg1)))
      (Cert.ReferenceIdeal.Read.val_main_v41 (F := Ideal) (m ((c : Thread nD τ).loc main_arg0)) (m ((c : Thread nD τ).loc main_arg1)))
      (m ((c : Thread nD τ).loc main_arg4)) (m ((c : Thread nD τ).loc main_arg2)) (m ((c : Thread nD τ).loc main_arg3))
      (m ((c : Thread nD τ).loc main_arg5)) := by
  unfold G
  rw [biasVec_eq]
  show combine (V m c main_arg0) (V m c main_v22) (V m c main_v41) (V m c main_arg4) (V m c main_arg2) (V m c main_arg3) _ = _
  rw [V_main_arg0, V_main_arg4, V_main_arg2, V_main_arg3, aggIn_eq, aggOut_eq]

end Cert.KernelIdeal.Bridge

end
-- ==== Proof.RefIsCombine.lean ====
/-
  The reference computes `combine`.

  Its last thirteen operations — three `dot_general`s contracting the 64 columns of the left factor with the 64 rows
  of a weight matrix, the bias broadcast along the rows, two multiplications by the splat literal one half and three
  additions — are, read at an index (r, q), exactly the specification's entry: the same three sums over the
  contracted position, the same grouping of the additions.  The two mean aggregates that feed the second and third
  product (operations %22 and %41: gather the neighbours' rows, scatter-add them and their count, divide) are left as
  the reference's own stages; nothing here looks inside them.
-/
import proofs.«169316_j36567351558755_1_alg».proof.Proof.Gen.ReferenceIdeal.Read
import proofs.«169316_j36567351558755_1_alg».proof.Proof.Spec

noncomputable section

namespace Cert.ReferenceIdeal.RefValue

open Cert.ReferenceIdeal Cert.ReferenceIdeal.Read Idealize.ShloMosaic Idealize.ShloMosaic.ValueIdx Cert.Combine

/-! ## The operand indices of the three products, and of the bias, as coordinates -/

theorem lidx_self (i : S100000x64.Idx) (k : Fin 64) : lidx_main_v42 i k = ix2 (i 0) k :=
  funext fun a => by match a with | ⟨0, _⟩ => rfl | ⟨1, _⟩ => rfl
theorem ridx_self (i : S100000x64.Idx) (k : Fin 64) : ridx_main_v42 i k = ix2 k (i 1) :=
  funext fun a => by match a with | ⟨0, _⟩ => rfl | ⟨1, _⟩ => rfl
theorem lidx_in (i : S100000x64.Idx) (k : Fin 64) : lidx_main_v46 i k = ix2 (i 0) k :=
  funext fun a => by match a with | ⟨0, _⟩ => rfl | ⟨1, _⟩ => rfl
theorem ridx_in (i : S100000x64.Idx) (k : Fin 64) : ridx_main_v46 i k = ix2 k (i 1) :=
  funext fun a => by match a with | ⟨0, _⟩ => rfl | ⟨1, _⟩ => rfl
theorem lidx_out (i : S100000x64.Idx) (k : Fin 64) : lidx_main_v50 i k = ix2 (i 0) k :=
  funext fun a => by match a with | ⟨0, _⟩ => rfl | ⟨1, _⟩ => rfl
theorem ridx_out (i : S100000x64.Idx) (k : Fin 64) : ridx_main_v50 i k = ix2 k (i 1) :=
  funext fun a => by match a with | ⟨0, _⟩ => rfl | ⟨1, _⟩ => rfl
/-- The bias, broadcast to one row and then along the rows, is read at the column. -/
theorem bias_idx (i : S100000x64.Idx) : idx_main_v43 (idx_main_v44 i) = ix1 (i 1) :=
  funext fun a => by match a with | ⟨0, _⟩ => rfl

/-- THE REFERENCE'S RESULT STAGE IS `combine` of the features, the two aggregates' stages, the weights (self, in, out
    = arguments 4, 2, 3) and the bias. -/
theorem result_eq_combine (x0 : (⟨S100000x64, .f32⟩ : BufTy).Contents (Elt Ideal)) (x1 : (⟨S2x1000000, .i32⟩ : BufTy).Contents (Elt Ideal))
    (x2 x3 x4 : (⟨S64x64, .f32⟩ : BufTy).Contents (Elt Ideal)) (x5 : (⟨S64, .f32⟩ : BufTy).Contents (Elt Ideal)) :
    val_main_v53 (F := Ideal) x0 x1 x2 x3 x4 x5
      = combine x0 (val_main_v22 (F := Ideal) x0 x1) (val_main_v41 (F := Ideal) x0 x1) x4 x2 x3 x5 := by
  funext i
  rw [val_main_v53_apply, val_main_v49_apply, val_main_v52_apply, val_main_v45_apply, val_main_v48_apply,
    val_main_v42_apply, val_main_v44_apply, val_main_v43_apply, val_main_v46_apply, val_main_v47_apply,
    val_main_cst_10_apply, val_main_v50_apply, val_main_v51_apply, val_main_cst_11_apply]
  simp only [lidx_self, ridx_self, lidx_in, ridx_in, lidx_out, ridx_out, bias_idx,
    Ideal.addf_def, Ideal.mulf_def, Ideal.ofBits_def]
  rfl

end Cert.ReferenceIdeal.RefValue

end
-- ==== Proof.lean ====
/-
  A directional graph convolution's dense stage: for node features x [100000, 64], the mean of the in-neighbours' features
  a_in and of the out-neighbours' a_out (both computed on the host, by gathering rows along the edge list, scatter-adding
  them and their count, and dividing), the result is

      ((x W_self + b) + 1/2 a_in W_in) + 1/2 a_out W_out.

  The kernel computes the two aggregates on the host exactly as the reference does, then the three products, the bias and
  the two halved terms in one region over ten blocks of 10000 rows, its operands narrowed to bf16 for the products; the
  reference computes the same expression with three whole-array `dot_general`s.  Over the extended reals the narrowing is
  the identity and a product accumulated from zero is the plain sum over the 64 contracted positions, so both programs
  compute `Cert.Combine.combine` of the same operands (Proof/Spec.lean), with the additions grouped the same way: no law
  of arithmetic beyond reading the sums at an index is used, and the precondition is never opened.

  Proof/Payload.lean reads the body's stored value at an entry; Proof/KernelValue.lean reads the result array off the ten
  blocks; Proof/HostPrefix.lean identifies the host-computed operands with the reference's stages; Proof/Bridge.lean puts
  the kernel's result in terms of the arguments; Proof/RefIsCombine.lean reads the reference's result.  The three frames
  are the generated ones (the reference's is its generated run with the result dropped); the idealization rewrote nothing.
-/
import proofs.«169316_j36567351558755_1_alg».proof.Defs
import proofs.«169316_j36567351558755_1_alg».proof.Proof.Gen.Kernel
import proofs.«169316_j36567351558755_1_alg».proof.Proof.Gen.Kernel.Skeleton
import proofs.«169316_j36567351558755_1_alg».proof.Proof.Gen.Kernel.Launch
import proofs.«169316_j36567351558755_1_alg».proof.Proof.Gen.Kernel.Points
import proofs.«169316_j36567351558755_1_alg».proof.Proof.Gen.Kernel.Frame
import proofs.«169316_j36567351558755_1_alg».proof.Proof.Gen.KernelIdeal
import proofs.«169316_j36567351558755_1_alg».proof.Proof.Gen.KernelIdeal.Skeleton
import proofs.«169316_j36567351558755_1_alg».proof.Proof.Gen.KernelIdeal.Launch
import proofs.«169316_j36567351558755_1_alg».proof.Proof.Gen.KernelIdeal.Points
import proofs.«169316_j36567351558755_1_alg».proof.Proof.Gen.KernelIdeal.Frame
import proofs.«169316_j36567351558755_1_alg».proof.Proof.Gen.ReferenceIdeal
import proofs.«169316_j36567351558755_1_alg».proof.Proof.Gen.Pre_finite_inputs
import proofs.«169316_j36567351558755_1_alg».proof.Proof.Gen.KernelIdeal.Value
import proofs.«169316_j36567351558755_1_alg».proof.Proof.Gen.ReferenceIdeal.Run
import proofs.«169316_j36567351558755_1_alg».proof.Proof.Gen.ReferenceIdeal.Read
import proofs.«169316_j36567351558755_1_alg».proof.Proof.Bridge
import proofs.«169316_j36567351558755_1_alg».proof.Proof.RefIsCombine
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the six arguments both programs end with the result array at `combine` of the features,
    the two aggregate stages, the weights and the bias: the kernel by its ten blocks, the reference by its last
    thirteen operations. -/
theorem algebraic : Cert.algebraic_KernelIdeal_ReferenceIdeal := by
  intro m ρ m' ρ' _ hagree
  refine ⟨fun c => Cert.KernelIdeal.KernelValue.G m c, ?_, ?_⟩
  · exact (θ_run Cert.KernelIdeal.defs _ _).mono
      (fun r h c => ⟨(h c).1.trans (Cert.KernelIdeal.KernelValue.final m c), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v53_eq, Cert.ReferenceIdeal.RefValue.result_eq_combine,
      (hagree c).1, (hagree c).2.1, (hagree c).2.2.1, (hagree c).2.2.2.1, (hagree c).2.2.2.2.1, (hagree c).2.2.2.2.2]
    exact (Cert.KernelIdeal.Bridge.G_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
